-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S100352x512 : Shape := ⟨2, ![100352, 512]⟩
abbrev S512x1 : Shape := ⟨2, ![512, 1]⟩
abbrev S512x100352 : Shape := ⟨2, ![512, 100352]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S512x100000 : Shape := ⟨2, ![512, 100000]⟩

abbrev nBuf : Space → Nat
  | .hbm => 9
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S_, .i32⟩
  | .hbm, ⟨4, _⟩ => ⟨S_, .f32⟩
  | .hbm, ⟨5, _⟩ => ⟨S100352x512, .f32⟩
  | .hbm, ⟨6, _⟩ => ⟨S512x1, .i32⟩
  | .hbm, ⟨7, _⟩ => ⟨S512x100352, .f32⟩
  | .hbm, ⟨8, _⟩ => ⟨S512x100000, .f32⟩
  | .local _ .vmem, ⟨0, _⟩ => ⟨S512x512, .f32⟩
  | .local _ .vmem, ⟨1, _⟩ => ⟨S1024x512, .f32⟩
  | .local _ .vmem, ⟨2, _⟩ => ⟨S1024x512, .f32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S100000x512_S100352x512_03520_000 : S100000x512.Pads (![0, 0] : Fin 2 → Nat) ![352, 0] ![0, 0] S100352x512
  h_S_ : 0 < S_.numel
  shapeCasts_S512_S512x1 : S512.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  broadcasts_S512x1_S512x512 : S512x1.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  transposes_S1024x512_p1_0_S512x1024 : S1024x512.Transposes [1, 0] S512x1024
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  slices_S512x100352_S512x100000_0_0 : S512x100352.Slices ![0, 0] S512x100000
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S100352x512.size a
  hwx0_1 : ∀ i : grid0.Coords, EltTy.bits .f32 = 32 ∨ (Rect.block (s := S100352x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x100352.size a
  hwx0_3 : ∀ i : grid0.Coords, EltTy.bits .f32 = 32 ∨ (Rect.block (s := S512x100352) S512x1024.size (cc0_transform_3 i) (hinb0_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩

abbrev nBuf : Space → Nat
  | .hbm => 59
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S512x100000, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S512x100000, .f32⟩
  | .hbm, ⟨37, _⟩ => ⟨S_, .f32⟩
  | .hbm, ⟨38, _⟩ => ⟨S512x100000, .f32⟩
  | .hbm, ⟨39, _⟩ => ⟨S512x100000, .i1⟩
  | .hbm, ⟨40, _⟩ => ⟨S_, .f32⟩
  | .hbm, ⟨41, _⟩ => ⟨S512x100000, .f32⟩
  | .hbm, ⟨42, _⟩ => ⟨S512x100000, .f32⟩
  | .hbm, ⟨43, _⟩ => ⟨S512x100000, .f32⟩
  | .hbm, ⟨44, _⟩ => ⟨S512x1, .i32⟩
  | .hbm, ⟨45, _⟩ => ⟨S1x100000, .i32⟩
  | .hbm, ⟨46, _⟩ => ⟨S512x100000, .i32⟩
  | .hbm, ⟨47, _⟩ => ⟨S512x100000, .i32⟩
  | .hbm, ⟨48, _⟩ => ⟨S512x100000, .i1⟩
  | .hbm, ⟨49, _⟩ => ⟨S512x100000, .f32⟩
  | .hbm, ⟨50, _⟩ => ⟨S512x100000, .f32⟩
  | .hbm, ⟨51, _⟩ => ⟨S_, .f32⟩
  | .hbm, ⟨52, _⟩ => ⟨S512x100000, .f32⟩
  | .hbm, ⟨53, _⟩ => ⟨S512x100000, .f32⟩
  | .hbm, ⟨54, _⟩ => ⟨S512x100000, .f32⟩
  | .hbm, ⟨55, _⟩ => ⟨S512x100000, .f32⟩
  | .hbm, ⟨56, _⟩ => ⟨S_, .f32⟩
  | .hbm, ⟨57, _⟩ => ⟨S512x100000, .f32⟩
  | .hbm, ⟨58, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.Spec.lean ====
/-
  The mathematics both programs compute at one entry of the result, over the extended reals.

  Row `r` of the input and row `q` of the weight matrix are each divided by their Euclidean norm floored at a
  small positive constant; `cosOf` is the inner product of the two normalised rows. From that cosine `c` the
  additive angular margin is applied at the entries the label selects: with `s = sqrt (1 - c²)` the sine,
  `phi = c·cos m - s·sin m` where `c` exceeds the threshold and `c - mm` elsewhere; the entry is `phi` where the
  column is the row's label and `c` elsewhere, times a scale.

  The two programs spell this differently. One clips the cosine to [-1, 1], floors `1 - c²` at zero before the
  square root, and chooses between `phi` and `c` by a select (`marginK`); the other does none of the clipping
  and blends `phi` and `c` with the 0/1 indicator of the label (`marginR`). For rows of real numbers the
  Cauchy–Schwarz inequality bounds the cosine by one in absolute value — the floor on each norm only makes the
  quotient smaller — so the clip and the floor at zero are the identity, and the blend with a 0/1 indicator is
  the select: the two are one function (`marginK_cosOf`).
-/
import Idealize.ShloMosaic.PureOps.Ideal
import Idealize.ShloMosaic.PureOps.Ideal.Laws
import Idealize.ShloMosaic.Lib.ValueIdx

noncomputable section

namespace Cert.ArcMargin

open Idealize.ShloMosaic

/-- The sum of the squares of a row's entries. -/
def sumsq (v : Fin 512 → EReal) : EReal := ∑ k : Fin 512, v k * v k

/-- A row's Euclidean norm, floored at the positive constant both programs use. -/
def nrm (v : Fin 512 → EReal) : EReal := max (Ideal.sqrt (sumsq v)) (Ideal.ofBits .f32 0x2B8CBCCC#32)

/-- The inner product of two rows, each divided by its floored norm. -/
def cosOf (x w : Fin 512 → EReal) : EReal := ∑ k : Fin 512, Ideal.div (x k) (nrm x) * Ideal.div (w k) (nrm w)

/-- The margin-adjusted value from the cosine `c` and the sine `s`: `c·cos m - s·sin m` above the threshold,
    `c - mm` at or below it. -/
def phiOf (c s : EReal) : EReal :=
  Scalar.select (Ideal.cmp .ogt c (Ideal.ofBits .f32 0xBF60A940#32))
    (c * Ideal.ofBits .f32 0x3F60A940#32 - s * Ideal.ofBits .f32 0x3EF57744#32)
    (c - Ideal.ofBits .f32 0x3E757744#32)

/-- The cosine clipped to [-1, 1]. -/
def clip (c : EReal) : EReal := min (Ideal.ofBits .f32 0x3F800000#32) (max (Ideal.ofBits .f32 0xBF800000#32) c)

/-- One entry as the kernel computes it: clip, floor `1 - c²` at zero, select by the label's indicator, scale. -/
def marginK (c : EReal) (hit : BitVec 1) : EReal :=
  Scalar.select hit
    (phiOf (clip c) (Ideal.sqrt (max (Ideal.ofBits .f32 0x3F800000#32 - clip c * clip c) (Ideal.ofBits .f32 0x00000000#32))))
    (clip c) * Ideal.ofBits .f32 0x41F00000#32

/-- One entry as the reference computes it: no clipping, the indicator as a 0/1 factor blending `phi` and `c`. -/
def marginR (c : EReal) (hit : BitVec 1) : EReal :=
  (((hit.toNat : ℝ) : EReal) * phiOf c (Ideal.sqrt (Ideal.ofBits .f32 0x3F800000#32 - c * c))
    + (Ideal.ofBits .f32 0x3F800000#32 - ((hit.toNat : ℝ) : EReal)) * c) * Ideal.ofBits .f32 0x41F00000#32

/-- Whether column `col` is the label `lbl`, as a one-bit word. -/
def hitAt (lbl : BitVec 32) (col : ℕ) : BitVec 1 := IntOp.cmpi .eq lbl (BitVec.ofNat 32 col)

/-- The pattern `0x3F800000` denotes one. -/
private theorem one_f32 : Ideal.ofBits .f32 0x3F800000#32 = 1 := by
  simp [Ideal.ofBits, Ideal.ieee, -EReal.coe_mul]
  norm_num

/-- The pattern `0xBF800000` denotes minus one. -/
private theorem negOne_f32 : Ideal.ofBits .f32 0xBF800000#32 = -1 := by
  simp [Ideal.ofBits, Ideal.ieee, -EReal.coe_mul]
  norm_num

/-- The floor on a norm is a positive real number: sign bit clear, exponent field `0x57 = 87` (neither all zeros nor all
    ones), so the pattern denotes `(2^23 + 0x0CBCCC) · 2^(87 - 127 - 23)`. -/
private theorem floor_pos : ∃ e : ℝ, 0 < e ∧ Ideal.ofBits .f32 0x2B8CBCCC#32 = (e : EReal) := by
  simp [Ideal.ofBits, Ideal.ieee, -EReal.coe_mul]

/-- A finite sum of coerced reals is the coercion of the sum. -/
private theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sum of squares of a row of reals is the real sum of squares. -/
private theorem sumsq_coe (x : Fin 512 → ℝ) :
    sumsq (fun k => (x k : EReal)) = ((∑ k, x k * x k : ℝ) : EReal) := by
  unfold sumsq
  rw [← coe_sum]
  exact Finset.sum_congr rfl (fun k _ => (EReal.coe_mul (x k) (x k)).symm)

/-- The floored norm of a row of reals is a positive real, at least the row's Euclidean norm. -/
private theorem nrm_coe (x : Fin 512 → ℝ) :
    ∃ d : ℝ, 0 < d ∧ Real.sqrt (∑ k, x k * x k) ≤ d ∧ nrm (fun k => (x k : EReal)) = (d : EReal) := by
  obtain ⟨e, he, hE⟩ := floor_pos
  refine ⟨max (Real.sqrt (∑ k, x k * x k)) e, lt_max_of_lt_right he, le_max_left _ _, ?_⟩
  have h0 : ¬ (∑ k, x k * x k) < 0 := not_lt.mpr (Finset.sum_nonneg (fun k _ => mul_self_nonneg (x k)))
  unfold nrm
  rw [sumsq_coe, hE, Ideal.sqrt_coe, if_neg h0]
  exact (EReal.coe_strictMono.monotone.map_max).symm

/-- Cauchy–Schwarz with square roots: `|∑ x·w| ≤ √(∑ x·x) · √(∑ w·w)`. -/
private theorem abs_sum_mul_le (x w : Fin 512 → ℝ) :
    |∑ k, x k * w k| ≤ Real.sqrt (∑ k, x k * x k) * Real.sqrt (∑ k, w k * w k) := by
  have hx : ∑ k, x k * x k = ∑ k, x k ^ 2 := Finset.sum_congr rfl (fun k _ => (sq (x k)).symm)
  have hw : ∑ k, w k * w k = ∑ k, w k ^ 2 := Finset.sum_congr rfl (fun k _ => (sq (w k)).symm)
  rw [hx, hw, ← Real.sqrt_mul (Finset.sum_nonneg (fun k _ => sq_nonneg (x k)))]
  exact Real.abs_le_sqrt (Finset.sum_mul_sq_le_sq_mul_sq Finset.univ x w)

/-- For a real cosine of absolute value at most one the two spellings of an entry agree. -/
theorem marginK_eq_marginR (c : ℝ) (hc : |c| ≤ 1) (hit : BitVec 1) :
    marginK (c : EReal) hit = marginR (c : EReal) hit := by
  obtain ⟨h1, h2⟩ := abs_le.mp hc
  -- the clip is the identity on [-1, 1]
  have hclip : clip (c : EReal) = (c : EReal) := by
    unfold clip
    have hlo : (-1 : EReal) ≤ (c : EReal) := by
      rw [← EReal.coe_one, ← EReal.coe_neg, EReal.coe_le_coe_iff]
      exact h1
    have hhi : (c : EReal) ≤ 1 := by
      rw [← EReal.coe_one, EReal.coe_le_coe_iff]
      exact h2
    rw [one_f32, negOne_f32, max_eq_right hlo, min_eq_right hhi]
  -- 1 - c² is nonnegative, so the floor at zero is the identity
  have hfl : max (Ideal.ofBits .f32 0x3F800000#32 - (c : EReal) * (c : EReal)) (Ideal.ofBits .f32 0x00000000#32)
      = Ideal.ofBits .f32 0x3F800000#32 - (c : EReal) * (c : EReal) := by
    rw [one_f32, Ideal.ofBits_zero_f32]
    apply max_eq_left
    rw [← EReal.coe_mul, ← EReal.coe_one, ← EReal.coe_sub, ← EReal.coe_zero, EReal.coe_le_coe_iff]
    nlinarith
  have e11 : (1 : EReal) - 1 = 0 := by rw [← EReal.coe_one, ← EReal.coe_sub, sub_self, EReal.coe_zero]
  have e10 : (1 : EReal) - 0 = 1 := by rw [← EReal.coe_one, ← EReal.coe_zero, ← EReal.coe_sub, sub_zero]
  unfold marginK marginR
  rw [hclip, hfl]
  -- the blend with a 0/1 indicator is the select
  rcases BitVec.eq_zero_or_eq_one hit with h | h
  · subst h
    have e0 : (((0#1 : BitVec 1).toNat : ℝ) : EReal) = 0 := by simp
    rw [ValueIdx.select_zero, e0, one_f32, e10, zero_mul, zero_add, one_mul]
  · subst h
    have e1 : (((1#1 : BitVec 1).toNat : ℝ) : EReal) = 1 := by simp
    rw [ValueIdx.select_one, e1, one_f32, e11, one_mul, zero_mul, add_zero]

/-- The cosine of two rows of real numbers is a real number of absolute value at most one (Cauchy–Schwarz; flooring a
    norm only shrinks the quotient). -/
theorem cosOf_coe (x w : Fin 512 → ℝ) :
    ∃ c : ℝ, |c| ≤ 1 ∧ cosOf (fun k => (x k : EReal)) (fun k => (w k : EReal)) = (c : EReal) := by
  obtain ⟨dx, hdx, hxle, hX⟩ := nrm_coe x
  obtain ⟨dw, hdw, hwle, hW⟩ := nrm_coe w
  refine ⟨∑ k, (x k / dx) * (w k / dw), ?_, ?_⟩
  · -- the real cosine is (∑ x·w) / (dx·dw), and |∑ x·w| ≤ √(∑ x·x)·√(∑ w·w) ≤ dx·dw
    have hsum : ∑ k, (x k / dx) * (w k / dw) = (∑ k, x k * w k) / (dx * dw) := by
      rw [Finset.sum_div]
      exact Finset.sum_congr rfl (fun k _ => div_mul_div_comm (x k) dx (w k) dw)
    rw [hsum, abs_div, abs_of_pos (mul_pos hdx hdw), div_le_one (mul_pos hdx hdw)]
    exact (abs_sum_mul_le x w).trans (mul_le_mul hxle hwle (Real.sqrt_nonneg _) hdx.le)
  · -- each quotient by a positive real is a real quotient, and the sum of real products is real
    unfold cosOf
    rw [hX, hW, ← coe_sum]
    refine Finset.sum_congr rfl (fun k _ => ?_)
    rw [Ideal.div_coe hdx.ne', Ideal.div_coe hdw.ne', ← EReal.coe_mul, ← EReal.coe_mul, ← EReal.coe_mul]
    congr 1
    ring

/-- So on rows whose entries are all real the kernel's entry is the reference's. -/
theorem marginK_cosOf (x w : Fin 512 → EReal) (hx : ∀ k, ∃ r : ℝ, x k = (r : EReal)) (hw : ∀ k, ∃ r : ℝ, w k = (r : EReal))
    (hit : BitVec 1) : marginK (cosOf x w) hit = marginR (cosOf x w) hit := by
  choose x' hx' using hx
  choose w' hw' using hw
  obtain ⟨c, hc, e⟩ := cosOf_coe x' w'
  have ex : x = fun k => (x' k : EReal) := funext hx'
  have ew : w = fun k => (w' k : EReal) := funext hw'
  rw [ex, ew, e]
  exact marginK_eq_marginR c hc hit

end Cert.ArcMargin

end
-- ==== Proof.SpecArr.lean ====
/-
  The result array as ONE function of the three argument arrays, entry by entry, in the two spellings.

  Entry (r, q) of the result depends on row `r` of the input, row `q` of the weight matrix and the label of row
  `r`: it is the margin-adjusted, scaled cosine of the two rows, the margin applied where `q` is the label.
  `GR` spells each entry as the reference computes it (`marginR`), `GK` as the kernel does (`marginK`); `GKpad`
  is `GK` over a weight matrix of 100352 rows with the label column given as a 512 × 1 array, which is what the
  kernel's grid of 98 column blocks of width 1024 fills before the result is cut back to 100000 columns.
  Where every entry of the input and of the weights is a real number the two spellings agree (`GK_eq_GR`).
-/
import proofs.«118442_j50869592654076_1_alg».proof.Proof.Spec

noncomputable section

namespace Cert.ArcMargin

open Idealize.ShloMosaic Idealize.ShloMosaic.ValueIdx

/-- Row `r` of an array with 512 columns. -/
def rowOf {n : ℕ} (a : (⟨2, ![n, 512]⟩ : Shape).Idx → EReal) (r : Fin n) : Fin 512 → EReal := fun k => a (ix2 r k)

/-- The result as the reference spells it. -/
def GR (x : (⟨2, ![512, 512]⟩ : Shape).Idx → EReal) (w : (⟨2, ![100000, 512]⟩ : Shape).Idx → EReal)
    (lbl : (⟨1, ![512]⟩ : Shape).Idx → BitVec 32) : (⟨2, ![512, 100000]⟩ : Shape).Idx → EReal :=
  fun i => marginR (cosOf (rowOf x (i 0)) (rowOf w (i 1))) (hitAt (lbl (ix1 (i 0))) (i 1).val)

/-- The result as the kernel spells it. -/
def GK (x : (⟨2, ![512, 512]⟩ : Shape).Idx → EReal) (w : (⟨2, ![100000, 512]⟩ : Shape).Idx → EReal)
    (lbl : (⟨1, ![512]⟩ : Shape).Idx → BitVec 32) : (⟨2, ![512, 100000]⟩ : Shape).Idx → EReal :=
  fun i => marginK (cosOf (rowOf x (i 0)) (rowOf w (i 1))) (hitAt (lbl (ix1 (i 0))) (i 1).val)

/-- The kernel's spelling over the weight matrix padded to 100352 rows and the labels as a column. -/
def GKpad (x : (⟨2, ![512, 512]⟩ : Shape).Idx → EReal) (wp : (⟨2, ![100352, 512]⟩ : Shape).Idx → EReal)
    (lcol : (⟨2, ![512, 1]⟩ : Shape).Idx → BitVec 32) : (⟨2, ![512, 100352]⟩ : Shape).Idx → EReal :=
  fun i => marginK (cosOf (rowOf x (i 0)) (rowOf wp (i 1))) (hitAt (lcol (ix2 (i 0) 0)) (i 1).val)

theorem GR_apply (x w lbl) (r : Fin 512) (q : Fin 100000) :
    GR x w lbl (ix2 r q) = marginR (cosOf (rowOf x r) (rowOf w q)) (hitAt (lbl (ix1 r)) q.val) := rfl

theorem GK_apply (x w lbl) (r : Fin 512) (q : Fin 100000) :
    GK x w lbl (ix2 r q) = marginK (cosOf (rowOf x r) (rowOf w q)) (hitAt (lbl (ix1 r)) q.val) := rfl

theorem GKpad_apply (x wp lcol) (r : Fin 512) (q : Fin 100352) :
    GKpad x wp lcol (ix2 r q) = marginK (cosOf (rowOf x r) (rowOf wp q)) (hitAt (lcol (ix2 r 0)) q.val) := rfl

/-- On arrays of real numbers the kernel's spelling of the result is the reference's. -/
theorem GK_eq_GR (x : (⟨2, ![512, 512]⟩ : Shape).Idx → EReal) (w : (⟨2, ![100000, 512]⟩ : Shape).Idx → EReal)
    (lbl : (⟨1, ![512]⟩ : Shape).Idx → BitVec 32)
    (hx : ∀ i, ∃ r : ℝ, x i = (r : EReal)) (hw : ∀ i, ∃ r : ℝ, w i = (r : EReal)) : GK x w lbl = GR x w lbl :=
  funext fun i => marginK_cosOf _ _ (fun k => hx _) (fun k => hw _) _

end Cert.ArcMargin

end
-- ==== Proof.KernelPay.lean ====
/-
  What the kernel's body stores at one entry of its output block, as the mathematics of `Spec`.

  At grid point `t` the body holds the whole input `x0` (512 × 512), the block `x1` of 1024 weight rows and the label
  column `x2` (512 × 1). Entry (r, j) of the stored block is: the cosine of row `r` of `x0` and row `j` of `x1` (each
  row divided by its floored norm, the product taken against the transposed block), clipped to [-1, 1]; the margin
  formula of the clipped cosine with `1 - c²` floored at zero under the root; the select by whether column
  `t·1024 + j` is the label of row `r`; the scale.
-/
import proofs.«118442_j50869592654076_1_alg».proof.Proof.Gen.KernelIdeal.Skeleton
import proofs.«118442_j50869592654076_1_alg».proof.Proof.SpecArr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.ArcMargin

/-- The reduced index `r` with the coordinate `k` inserted on the reduced axis is `(r, k)`. -/
theorem lift_S512 (r : Fin 512) (k : Fin 512) :
    (reduces_S512x512_S512).lift (ix1 r) k = ix2 r k := by
  funext a
  refine Fin.ext ?_
  match a with
  | ⟨0, _⟩ => rfl
  | ⟨1, _⟩ => rfl

theorem lift_S1024 (j : Fin 1024) (k : Fin 512) :
    (reduces_S1024x512_S1024).lift (ix1 j) k = ix2 j k := by
  funext a
  refine Fin.ext ?_
  match a with
  | ⟨0, _⟩ => rfl
  | ⟨1, _⟩ => rfl

/-- The sum of squares along a row of the 512 × 512 block. -/
theorem sumsq_S512 (x0 : FVec Ideal S512x512 .f32) (r : Fin 512) :
    multiReduction (F := Ideal) .add [1] S512 (mulf x0 x0) 0x00000000#32 reduces_S512x512_S512 (.inl rfl) rfl (ix1 r)
      = sumsq (fun k => x0 (ix2 r k)) := by
  refine (Ideal.multiReduction_add_single _ _ _ _ _ _).trans ?_
  unfold sumsq
  refine Finset.sum_congr rfl fun k _ => ?_
  exact congrArg (fun i => x0 i * x0 i) (lift_S512 r k)

theorem sumsq_S1024 (x1 : FVec Ideal S1024x512 .f32) (j : Fin 1024) :
    multiReduction (F := Ideal) .add [1] S1024 (mulf x1 x1) 0x00000000#32 reduces_S1024x512_S1024 (.inl rfl) rfl (ix1 j)
      = sumsq (fun k => x1 (ix2 j k)) := by
  refine (Ideal.multiReduction_add_single _ _ _ _ _ _).trans ?_
  unfold sumsq
  refine Finset.sum_congr rfl fun k _ => ?_
  exact congrArg (fun i => x1 i * x1 i) (lift_S1024 j k)

/-- The floored norm of a row of the 512 × 512 block, as the body computes it. -/
theorem nrm_S512 (x0 : FVec Ideal S512x512 .f32) (r : Fin 512) :
    maximumf (sqrt (shapeCast S512x1 (multiReduction (F := Ideal) .add [1] S512 (mulf x0 x0) 0x00000000#32 reduces_S512x512_S512 (.inl rfl) rfl) shapeCasts_S512_S512x1))
        (broadcast S512x1 (Scalar.ofBits .f32 0x2B8CBCCC#32)) (ix2 r 0)
      = nrm (fun k => x0 (ix2 r k)) := by
  rw [maximumf_apply, broadcast_apply]
  unfold nrm
  refine congrArg₂ max ?_ rfl
  show Ideal.sqrt (shapeCast S512x1 _ shapeCasts_S512_S512x1 (ix2 r 0)) = _
  refine congrArg Ideal.sqrt ?_
  refine (shapeCast_apply _ shapeCasts_S512_S512x1 (ix2 r 0) (ix1 r) ?_).trans (sumsq_S512 x0 r)
  rw [Shape.rowMajor_val_one, Shape.rowMajor_val_two]
  show r.val = r.val * 1 + 0
  omega

theorem nrm_S1024 (x1 : FVec Ideal S1024x512 .f32) (j : Fin 1024) :
    maximumf (sqrt (shapeCast S1024x1 (multiReduction (F := Ideal) .add [1] S1024 (mulf x1 x1) 0x00000000#32 reduces_S1024x512_S1024 (.inl rfl) rfl) shapeCasts_S1024_S1024x1))
        (broadcast S1024x1 (Scalar.ofBits .f32 0x2B8CBCCC#32)) (ix2 j 0)
      = nrm (fun k => x1 (ix2 j k)) := by
  rw [maximumf_apply, broadcast_apply]
  unfold nrm
  refine congrArg₂ max ?_ rfl
  show Ideal.sqrt (shapeCast S1024x1 _ shapeCasts_S1024_S1024x1 (ix2 j 0)) = _
  refine congrArg Ideal.sqrt ?_
  refine (shapeCast_apply _ shapeCasts_S1024_S1024x1 (ix2 j 0) (ix1 j) ?_).trans (sumsq_S1024 x1 j)
  rw [Shape.rowMajor_val_one, Shape.rowMajor_val_two]
  show j.val = j.val * 1 + 0
  omega

/-- An entry of the 512 × 512 block divided by a column of per-row divisors. -/
theorem div_S512 (x0 : FVec Ideal S512x512 .f32) (d : FVec Ideal S512x1 .f32) (r k : Fin 512) :
    divf x0 (broadcastTo S512x512 d broadcasts_S512x1_S512x512) (ix2 r k) = Ideal.div (x0 (ix2 r k)) (d (ix2 r 0)) := by
  rw [divf_apply]
  refine congrArg (Ideal.div (x0 (ix2 r k))) ?_
  refine broadcastTo_apply d broadcasts_S512x1_S512x512 (ix2 r k) (ix2 r 0) fun a => ?_
  match a with
  | ⟨0, _⟩ => rfl
  | ⟨1, _⟩ => rfl

theorem div_S1024 (x1 : FVec Ideal S1024x512 .f32) (d : FVec Ideal S1024x1 .f32) (j : Fin 1024) (k : Fin 512) :
    divf x1 (broadcastTo S1024x512 d broadcasts_S1024x1_S1024x512) (ix2 j k) = Ideal.div (x1 (ix2 j k)) (d (ix2 j 0)) := by
  rw [divf_apply]
  refine congrArg (Ideal.div (x1 (ix2 j k))) ?_
  refine broadcastTo_apply d broadcasts_S1024x1_S1024x512 (ix2 j k) (ix2 j 0) fun a => ?_
  match a with
  | ⟨0, _⟩ => rfl
  | ⟨1, _⟩ => rfl

/-! The product against the transposed block: the operand indices of the contraction. -/

theorem lhs_dot_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs_dot_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_dot_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_dot_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product of a 512 × 512 and a 512 × 1024 block, accumulated into zero: at (r, j) the sum over k of the products of
    the entries (r, k) and (k, j). -/
theorem matmul_S (a : FVec Ideal S512x512 .bf16) (b : FVec Ideal S512x1024 .bf16) (r : Fin 512) (j : Fin 1024) :
    matmul dot_S512x512_S512x1024_S512x1024_1_0_0_1_n_n none a b (constant S512x1024 .f32 0x00000000#32) (ix2 r j)
      = ∑ k : Fin 512, a (ix2 r k) * b (ix2 k j) := by
  simp only [matmul]
  rw [Ideal.matmul_constant_zero_apply,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r j)
      ((contrEquiv1 dot_S512x512_S512x1024_S512x1024_1_0_0_1_n_n 512 rfl rfl).symm k) = ix2 r k :=
    funext fun c => Fin.ext (by
      match c with
      | ⟨0, _⟩ => exact lhs_dot_0 _ _
      | ⟨1, _⟩ => exact (lhs_dot_1 _ _).trans hk)
  have er : dot_S512x512_S512x1024_S512x1024_1_0_0_1_n_n.rhsIdx (ix2 r j)
      ((contrEquiv1 dot_S512x512_S512x1024_S512x1024_1_0_0_1_n_n 512 rfl rfl).symm k) = ix2 k j :=
    funext fun c => Fin.ext (by
      match c with
      | ⟨0, _⟩ => exact (rhs_dot_0 _ _).trans hk
      | ⟨1, _⟩ => exact rhs_dot_1 _ _)
  rw [el, er]

/-- The clipped cosine: entry (r, j) of the product of the normalised block and the transposed normalised block, clipped. -/
theorem pay2_apply (x0 : Vec Ideal S512x512 .f32) (x1 : Vec Ideal S1024x512 .f32) (r : Fin 512) (j : Fin 1024) :
    k0_pay2 x0 x1 (ix2 r j) = clip (cosOf (fun k => x0 (ix2 r k)) (fun k => x1 (ix2 j k))) := by
  unfold k0_pay2
  rw [shapeCast_self x1 shapeCasts_S1024x512_S1024x512]
  rw [minimumf_apply, maximumf_apply, broadcast_apply, broadcast_apply]
  unfold clip
  refine congrArg (min _) (congrArg (max _) ?_)
  refine (matmul_S _ _ r j).trans ?_
  unfold cosOf
  refine Finset.sum_congr rfl fun k _ => ?_
  rw [truncf_apply, transpose_ix2_apply, truncf_apply, div_S512, div_S1024, nrm_S512, nrm_S1024]

/-! The margin formula, pointwise over the clipped cosine. -/

theorem pay3_apply (x0 : Vec Ideal S512x512 .f32) (x1 : Vec Ideal S1024x512 .f32) (i : S512x1024.Idx) :
    k0_pay3 x0 x1 i
      = k0_pay2 x0 x1 i * Ideal.ofBits .f32 0x3F60A940#32
        - Ideal.sqrt (max (Ideal.ofBits .f32 0x3F800000#32 - k0_pay2 x0 x1 i * k0_pay2 x0 x1 i) (Ideal.ofBits .f32 0x00000000#32))
          * Ideal.ofBits .f32 0x3EF57744#32 := by
  unfold k0_pay3
  generalize k0_pay2 x0 x1 = c
  rfl

theorem pay4_apply (x0 : Vec Ideal S512x512 .f32) (x1 : Vec Ideal S1024x512 .f32) (i : S512x1024.Idx) :
    k0_pay4 x0 x1 i = Ideal.cmp .ogt (k0_pay2 x0 x1 i) (Ideal.ofBits .f32 0xBF60A940#32) := by
  unfold k0_pay4
  generalize k0_pay2 x0 x1 = c
  rfl

theorem pay5_apply (x0 : Vec Ideal S512x512 .f32) (x1 : Vec Ideal S1024x512 .f32) (i : S512x1024.Idx) :
    k0_pay5 x0 x1 i = k0_pay2 x0 x1 i - Ideal.ofBits .f32 0x3E757744#32 := by
  unfold k0_pay5
  generalize k0_pay2 x0 x1 = c
  rfl

/-! The select by the label and the scale. -/

/-- The number of column `j` of the block at grid point `t`, as a 32-bit word. -/
theorem col_word (t j : ℕ) :
    IntOp.addi (Scalar.muli (BitVec.ofNat 32 t) 1024#32) (BitVec.ofNat 32 j) = BitVec.ofNat 32 (t * 1024 + j) := by
  show BitVec.ofNat 32 t * BitVec.ofNat 32 1024 + BitVec.ofNat 32 j = _
  rw [BitVec.ofNat_add, BitVec.ofNat_mul]

/-- Equality of two words does not depend on their order. -/
theorem cmpi_eq_comm (a b : BitVec 32) : IntOp.cmpi .eq a b = IntOp.cmpi .eq b a := by
  show BitVec.ofBool (a == b) = BitVec.ofBool (b == a)
  rw [BEq.comm]

/-- The stored value at (r, j) from the values it reads. -/
theorem pay1_apply (t : ℕ) (v26 v37 : FVec Ideal S512x1024 .f32) (v39 : IVec S512x1024 1) (v41 : FVec Ideal S512x1024 .f32)
    (x2 : Vec Ideal S512x1 .i32) (r : Fin 512) (j : Fin 1024) :
    k0_pay1 (F := Ideal) (BitVec.ofNat 32 t) v26 v37 v39 v41 x2 (ix2 r j)
      = Scalar.select (hitAt (x2 (ix2 r 0)) (t * 1024 + j.val))
          (Scalar.select (v39 (ix2 r j)) (v37 (ix2 r j)) (v41 (ix2 r j))) (v26 (ix2 r j))
        * Ideal.ofBits .f32 0x41F00000#32 := by
  unfold k0_pay1
  rw [shapeCast_self x2 shapeCasts_S512x1_S512x1]
  rw [mulf_apply, broadcast_apply, select_apply, select_apply]
  refine congrArg (fun b => Scalar.select b (Scalar.select (v39 (ix2 r j)) (v37 (ix2 r j)) (v41 (ix2 r j))) (v26 (ix2 r j))
    * Ideal.ofBits .f32 0x41F00000#32) ?_
  show IntOp.cmpi .eq
      (IntOp.addi (Scalar.muli (BitVec.ofNat 32 t) 1024#32) (iota .tc S512x1024 32 [1] iota_S512x1024_d1_w32 (ix2 r j)))
      (broadcastTo S512x1024 x2 broadcasts_S512x1_S512x1024 (ix2 r j)) = _
  rw [iota_single_apply, broadcastTo_apply x2 broadcasts_S512x1_S512x1024 (ix2 r j) (ix2 r 0)
    (fun a => match a with | ⟨0, _⟩ => rfl | ⟨1, _⟩ => rfl)]
  show IntOp.cmpi .eq (IntOp.addi (Scalar.muli (BitVec.ofNat 32 t) 1024#32) (BitVec.ofNat 32 j.val)) (x2 (ix2 r 0)) = _
  rw [col_word, cmpi_eq_comm]
  rfl

/-- Entry (r, j) of the block the body stores at the grid point numbered `t`. -/
theorem pay_apply (t : ℕ) (x0 : Vec Ideal S512x512 .f32) (x1 : Vec Ideal S1024x512 .f32) (x2 : Vec Ideal S512x1 .i32)
    (r : Fin 512) (j : Fin 1024) :
    k0_pay1 (F := Ideal) (BitVec.ofNat 32 t) (k0_pay2 x0 x1) (k0_pay3 x0 x1) (k0_pay4 x0 x1) (k0_pay5 x0 x1) x2 (ix2 r j)
      = marginK (cosOf (fun k => x0 (ix2 r k)) (fun k => x1 (ix2 j k))) (hitAt (x2 (ix2 r 0)) (t * 1024 + j.val)) := by
  rw [pay1_apply, pay3_apply, pay4_apply, pay5_apply, pay2_apply]
  unfold marginK phiOf
  rfl

end Cert.KernelIdeal.Pay

end
-- ==== Proof.KernelValue.lean ====
/-
  What the kernel's run leaves in its result array: `GK` of the three arguments.

  The grid has 98 points; point `t` holds the whole input, rows `1024·t … 1024·t + 1023` of the weight matrix padded
  with zero rows to 100352 rows, and the whole label column, and writes columns `1024·t … 1024·t + 1023` of a
  512 × 100352 array. Entry (r, j) of the block written at `t` is the entry (r, 1024·t + j) of `GKpad` of the arrays the
  region finds (`block_entry`, from the payload read at an index); the 98 blocks tile the array, so after the region
  it is `GKpad` of them (`region_array`). The host then keeps the first 100000 columns, where the padded weight
  matrix's rows are the weight matrix's own and the label column is the label vector: `GK` (`result_eq`).
-/
import proofs.«118442_j50869592654076_1_alg».proof.Proof.KernelIdealFrame
import proofs.«118442_j50869592654076_1_alg».proof.Proof.KernelPay
import Idealize.ShloMosaic.Lib.Pipeline.Value
import Idealize.ShloMosaic.Lib.KernelVsHost
import Idealize.ShloMosaic.Lib.StableHlo.Run

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.ArcMargin

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input and the label column sit at block (0, 0) at every point, the
    weight block at point `t` is block row `t`, the output block is block column `t`, and the grid's one coordinate
    at point `t` is `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ ((grid0.coords t) 0).val = t.val :=
  (by decide +kernel : ∀ t : Fin grid0.N, _)

/-- One entry of the block the body stores at the point numbered `tn`, when its three loaded blocks are the whole
    input `X`, rows `1024·tn …` of the padded weights `WP` and the whole label column `LC`: the entry of `GKpad` at the
    same row and at column `1024·tn + j`. -/
theorem block_entry (tn : ℕ) (x0 : Vec Ideal S512x512 .f32) (x1 : Vec Ideal S1024x512 .f32) (x2 : Vec Ideal S512x1 .i32)
    (X : S512x512.Idx → EReal) (WP : S100352x512.Idx → EReal) (LC : S512x1.Idx → BitVec 32)
    (y : S512x1024.Idx) (i : S512x100352.Idx)
    (hx0 : ∀ (r k : Fin 512), x0 (ix2 r k) = X (ix2 r k))
    (hx1 : ∀ (j : Fin 1024) (k : Fin 512) (q : Fin 100352), q.val = tn * 1024 + j.val → x1 (ix2 j k) = WP (ix2 q k))
    (hx2 : ∀ r : Fin 512, x2 (ix2 r 0) = LC (ix2 r 0))
    (hi0 : (i 0).val = (y 0).val) (hi1 : (i 1).val = tn * 1024 + (y 1).val) :
    k0_pay1 (F := Ideal) (BitVec.ofNat 32 tn) (k0_pay2 x0 x1) (k0_pay3 x0 x1) (k0_pay4 x0 x1) (k0_pay5 x0 x1) x2 y
      = GKpad X WP LC i := by
  obtain ⟨r, j, rfl⟩ : ∃ (r : Fin 512) (j : Fin 1024), y = ix2 r j := ⟨y 0, y 1, eq_ix2 y⟩
  obtain ⟨r', q, rfl⟩ : ∃ (r' : Fin 512) (q : Fin 100352), i = ix2 r' q := ⟨i 0, i 1, eq_ix2 i⟩
  have er : r' = r := Fin.ext hi0
  subst er
  rw [Pay.pay_apply, GKpad_apply]
  have e1 : (fun k => x0 (ix2 r' k)) = rowOf X r' := funext fun k => hx0 r' k
  have e2 : (fun k => x1 (ix2 j k)) = rowOf WP q := funext fun k => hx1 j k q hi1
  have e3 : tn * 1024 + j.val = q.val := hi1.symm
  rw [e1, e2, hx2 r', e3]

/-- WHAT POINT `t` WRITES BACK is block `t` of `GKpad` of the arrays the region finds. -/
theorem flushed_eq (c : Dev nD) (t : Fin cfg0.N) :
    (dats m 0 c).flushed 3 t
      = ((cfg0.win 3).blk t).view.read (Elt Ideal) (GKpad (V m c main_arg0) (V m c main_v0) (V m c main_v1)) := by
  show (cfg0.win 3).cut (grid0.coords t) ((dats m 0 c).after 3 t) = _
  rw [after0_3]
  unfold out0_3
  rw [View.canon_unit_zero hz]
  simp only [View.ld_unit_zero (S := S512x512) hz, View.ld_unit_zero (S := S1024x512) hz, View.ld_unit_zero (S := S512x1) hz]
  obtain ⟨e00, e01, e10, e11, e20, e21, e30, e31, ec⟩ := idx_facts t
  funext y
  show k0_pay1 (F := Ideal) (BitVec.ofNat 32 ((grid0.coords t) 0).val) (k0_pay2 (iblk m c 0 t) (iblk m c 1 t))
        (k0_pay3 (iblk m c 0 t) (iblk m c 1 t)) (k0_pay4 (iblk m c 0 t) (iblk m c 1 t)) (k0_pay5 (iblk m c 0 t) (iblk m c 1 t))
        (iblk m c 2 t) y
      = GKpad (V m c main_arg0) (V m c main_v0) (V m c main_v1) (((cfg0.win 3).blk t).view.emb y)
  refine block_entry ((grid0.coords t) 0).val (iblk m c 0 t) (iblk m c 1 t) (iblk m c 2 t) _ _ _ y _ ?_ ?_ ?_ ?_ ?_
  · intro r k
    show V m c main_arg0 (((cfg0.win 0).blk t).view.emb (ix2 r k)) = V m c main_arg0 (ix2 r k)
    refine congrArg _ (funext fun a => Fin.ext ?_)
    match a with
    | ⟨0, _⟩ => show win0_0.index t (0 : Fin 2) * 512 + 1 * r.val = r.val; omega
    | ⟨1, _⟩ => show win0_0.index t (1 : Fin 2) * 512 + 1 * k.val = k.val; omega
  · intro j k q hq
    show V m c main_v0 (((cfg0.win 1).blk t).view.emb (ix2 j k)) = V m c main_v0 (ix2 q k)
    refine congrArg _ (funext fun a => Fin.ext ?_)
    match a with
    | ⟨0, _⟩ => show win0_1.index t (0 : Fin 2) * 1024 + 1 * j.val = q.val; omega
    | ⟨1, _⟩ => show win0_1.index t (1 : Fin 2) * 512 + 1 * k.val = k.val; omega
  · intro r
    show V m c main_v1 (((cfg0.win 2).blk t).view.emb (ix2 r 0)) = V m c main_v1 (ix2 r 0)
    refine congrArg _ (funext fun a => Fin.ext ?_)
    match a with
    | ⟨0, _⟩ => show win0_2.index t (0 : Fin 2) * 512 + 1 * r.val = r.val; omega
    | ⟨1, _⟩ => show win0_2.index t (1 : Fin 2) * 1 + 1 * 0 = 0; omega
  · show win0_3.index t (0 : Fin 2) * 512 + 1 * (y 0).val = (y 0).val; omega
  · show win0_3.index t (1 : Fin 2) * 1024 + 1 * (y 1).val = ((grid0.coords t) 0).val * 1024 + (y 1).val; omega

/-- An index of the 512 × 100352 array is in point `t`'s block iff each coordinate is in the block's range on its axis. -/
theorem mem_blk (t : Fin cfg0.N) (i : S512x100352.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Every index is in the block of the point numbered by its column divided by 1024. -/
theorem covered (i : S512x100352.Idx) :
    ∃ t : Fin cfg0.N, (cfg0.win 3).flush t = true ∧ i ∈ ((cfg0.win 3).blk t).view.set := by
  have hi0 : (i 0).val < 512 := (i 0).isLt
  have hi1 : (i 1).val < 100352 := (i 1).isLt
  have hN : grid0.N = 98 := N_0
  have ht : (i 1).val / 1024 < cfg0.N := by show (i 1).val / 1024 < grid0.N; omega
  refine ⟨⟨(i 1).val / 1024, ht⟩, flush0_3 _, ?_⟩
  rw [mem_blk]
  obtain ⟨_, _, _, _, _, _, e30, e31, _⟩ := idx_facts ⟨(i 1).val / 1024, ht⟩
  have e31' : win0_3.index ⟨(i 1).val / 1024, ht⟩ (1 : Fin 2) = (i 1).val / 1024 := e31
  intro a
  match a with
  | ⟨0, _⟩ =>
    show win0_3.index ⟨(i 1).val / 1024, ht⟩ (0 : Fin 2) * 512 ≤ (i 0).val ∧ (i 0).val < win0_3.index ⟨(i 1).val / 1024, ht⟩ (0 : Fin 2) * 512 + 512
    omega
  | ⟨1, _⟩ =>
    show win0_3.index ⟨(i 1).val / 1024, ht⟩ (1 : Fin 2) * 1024 ≤ (i 1).val ∧ (i 1).val < win0_3.index ⟨(i 1).val / 1024, ht⟩ (1 : Fin 2) * 1024 + 1024
    omega

/-- THE ARRAY after the region: `GKpad` of the arrays the region finds. -/
theorem region_array (c : Dev nD) :
    (dats m 0 c).arrAt 3 cfg0.N = GKpad (V m c main_arg0) (V m c main_v0) (V m c main_v1) :=
  (dats m 0 c).arrAt_eq_of_cover 3 _ (fun t _ => flushed_eq m c t) covered

/-- The weight window's array as the region finds it: the weight matrix padded below with 352 rows of the converted
    integer zero. -/
theorem V_main_v0 (c : Dev nD) : (V m c main_v0 : S100352x512.Idx → EReal)
    = pad S100352x512 ![0, 0] ![352, 0] ![0, 0] (m ((c : Thread nD τ).loc main_arg1)) (sitofp (F := Ideal) .f32 (constantI S_ 32 0#32)) pads_S100000x512_S100352x512_03520_000 h_S_ := by
  dsimp only [V, V0]
  simp only [hostOps0, hostOps0_1, hostOps0_2, List.flatten_cons, List.flatten_nil, List.append_nil, List.cons_append, List.nil_append]
  after_results
  rfl

/-- The label window's array as the region finds it: the label vector recast as a column. -/
theorem V_main_v1 (c : Dev nD) : (V m c main_v1 : S512x1.Idx → BitVec 32)
    = shapeCast S512x1 (m ((c : Thread nD τ).loc main_arg2)) shapeCasts_S512_S512x1 := by
  dsimp only [V, V0]
  simp only [hostOps0, hostOps0_1, hostOps0_2, List.flatten_cons, List.flatten_nil, List.append_nil, List.cons_append, List.nil_append]
  after_results
  rfl

/-- The result buffer after the host's cut: the first 100000 columns of the region's array. -/
theorem tail_eq (c : Dev nD) :
    (Pipeline.afterTail₀ cfgs (dats m) 0 (V0 m) [hostOps1] c main_v3 : S512x100000.Idx → EReal)
      = extractStridedSlice S512x100000 ![0, 0] ((dats m 0 c).arrAt 3 cfg0.N) slices_S512x100352_S512x100000_0_0 := by
  unfold Pipeline.afterTail₀
  show StableHlo.after hostOps1 _ (Proc.devRef .tc main_v3) = _
  after_results
  exact congrArg (fun A => extractStridedSlice S512x100000 ![0, 0] A slices_S512x100352_S512x100000_0_0)
    (Pipeline.withArrays_arr spec0 launch0.win.arr_inj c _ _ (3 : Fin 4))

/-- THE RESULT after the run's host tail: `GK` of the three arguments. Inside the first 100000 columns a row of the
    padded weight matrix is the weight matrix's own row, and the label column's entry is the label. -/
theorem result_eq (c : Dev nD) :
    (Pipeline.afterTail₀ cfgs (dats m) 0 (V0 m) [hostOps1] c main_v3 : S512x100000.Idx → EReal)
      = GK (m ((c : Thread nD τ).loc main_arg0)) (m ((c : Thread nD τ).loc main_arg1)) (m ((c : Thread nD τ).loc main_arg2)) := by
  rw [tail_eq, region_array]
  funext i
  obtain ⟨r, q, rfl⟩ : ∃ (r : Fin 512) (q : Fin 100000), i = ix2 r q := ⟨i 0, i 1, eq_ix2 i⟩
  have hq : q.val < 100352 := by have := q.isLt; omega
  rw [extractStridedSlice_apply ![0, 0] _ slices_S512x100352_S512x100000_0_0 (ix2 r q) (ix2 r ⟨q.val, hq⟩) (fun a => match a with
    | ⟨0, _⟩ => by show r.val = 0 + r.val; omega
    | ⟨1, _⟩ => by show q.val = 0 + q.val; omega)]
  rw [GKpad_apply, GK_apply]
  have eX : rowOf (n := 512) (V m c main_arg0) r = rowOf (n := 512) (m ((c : Thread nD τ).loc main_arg0)) r := by
    rw [V_main_arg0]
  have eW : rowOf (n := 100352) (V m c main_v0) ⟨q.val, hq⟩ = rowOf (n := 100000) (m ((c : Thread nD τ).loc main_arg1)) q := by
    funext k
    show (V m c main_v0 : S100352x512.Idx → EReal) (ix2 ⟨q.val, hq⟩ k) = _
    rw [V_main_v0]
    exact pad_apply_of_inside ![0, 0] ![352, 0] ![0, 0] _ _ pads_S100000x512_S100352x512_03520_000 h_S_ (ix2 ⟨q.val, hq⟩ k) (ix2 q k) (fun a => match a with
      | ⟨0, _⟩ => by show q.val = 0 + q.val * (0 + 1); omega
      | ⟨1, _⟩ => by show k.val = 0 + k.val * (0 + 1); omega)
  have eL : (V m c main_v1 : S512x1.Idx → BitVec 32) (ix2 r 0) = (m ((c : Thread nD τ).loc main_arg2) : S512.Idx → BitVec 32) (ix1 r) := by
    rw [V_main_v1]
    exact shapeCast_apply _ shapeCasts_S512_S512x1 (ix2 r 0) (ix1 r) (by
      rw [Shape.rowMajor_val_one, Shape.rowMajor_val_two]
      show r.val = r.val * 1 + 0
      omega)
  rw [eX, eW, eL]

/-- THE RUN, READ: every weakly fair execution of the kernel's program terminates with its result buffer at `GK` of
    the three arguments and the arguments unchanged. -/
theorem run : θ_run defs (onTc (τ := τ) (main (F := Ideal))) ⟨m, fun _ => 0, ρ⟩ fun r => ∀ c : Dev nD,
      r.2.mem ((c.tc : Thread nD τ).loc main_v3)
        = GK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result array is `GR` of its three arguments.

  Read stage by stage: each row's sum of squares, its square root floored at the small constant, the rows divided by
  it, the product of the normalised input with the transposed normalised weights — at entry (r, q) the cosine of
  row `r` of the input and row `q` of the weights —, then the margin formula, blended with the 0/1 indicator that
  column `q` is row `r`'s label, and scaled.
-/
import proofs.«118442_j50869592654076_1_alg».proof.Proof.Gen.ReferenceIdeal.Read
import proofs.«118442_j50869592654076_1_alg».proof.Proof.SpecArr
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.ArcMargin

/-! ### The composed index functions at explicit coordinates -/

/-- Through the broadcast of the row sums to a column and the sum's own index: column `k` of row `r` of the input. -/
theorem idx_v1_v2 (r : Fin 512) (c : Fin 1) (k : Fin 512) :
    idx_main_v1 (idx_main_v2 (ix2 r c)) k = ix2 r k :=
  funext fun a => Fin.ext (by match a with | ⟨0, _⟩ => rfl | ⟨1, _⟩ => rfl)

/-- The broadcast of the norm column along a row reads the column at row `r`. -/
theorem idx_v6 (r : Fin 512) (k : Fin 512) : idx_main_v6 (ix2 r k) = ix2 r (0 : Fin 1) :=
  funext fun a => Fin.ext (by match a with | ⟨0, _⟩ => rfl | ⟨1, _⟩ => rfl)

/-- The same for the weights: column `k` of row `q`. -/
theorem idx_v9_v10 (q : Fin 100000) (c : Fin 1) (k : Fin 512) :
    idx_main_v9 (idx_main_v10 (ix2 q c)) k = ix2 q k :=
  funext fun a => Fin.ext (by match a with | ⟨0, _⟩ => rfl | ⟨1, _⟩ => rfl)

/-- The broadcast of the weights' norm column along a row reads the column at row `q`. -/
theorem idx_v14 (q : Fin 100000) (k : Fin 512) : idx_main_v14 (ix2 q k) = ix2 q (0 : Fin 1) :=
  funext fun a => Fin.ext (by match a with | ⟨0, _⟩ => rfl | ⟨1, _⟩ => rfl)

/-- The transpose reads entry (q, k) for entry (k, q). -/
theorem idx_v16 (k : Fin 512) (q : Fin 100000) : idx_main_v16 (ix2 k q) = ix2 q k :=
  funext fun a => Fin.ext (by match a with | ⟨0, _⟩ => rfl | ⟨1, _⟩ => rfl)

/-- The product's left operand at (r, q), summand `k`: entry (r, k). -/
theorem lidx_v17 (r : Fin 512) (q : Fin 100000) (k : Fin 512) : lidx_main_v17 (ix2 r q) k = ix2 r k :=
  funext fun a => Fin.ext (by match a with | ⟨0, _⟩ => rfl | ⟨1, _⟩ => rfl)

/-- The product's right operand at (r, q), summand `k`: entry (k, q). -/
theorem ridx_v17 (r : Fin 512) (q : Fin 100000) (k : Fin 512) : ridx_main_v17 (ix2 r q) k = ix2 k q :=
  funext fun a => Fin.ext (by match a with | ⟨0, _⟩ => rfl | ⟨1, _⟩ => rfl)

/-- The label broadcast over the columns reads the label of row `r`. -/
theorem idx_c0_c2 (r : Fin 512) (q : Fin 100000) : idx_main_call1_v0 (idx_main_call1_v2 (ix2 r q)) = ix1 r :=
  funext fun a => Fin.ext (by match a with | ⟨0, _⟩ => rfl)

/-- The column counter broadcast over the rows reads `q` at column `q`. -/
theorem idx_c3_val (r : Fin 512) (q : Fin 100000) : ((idx_main_call1_v3 (ix2 r q)) 1).val = q.val := rfl

/-! ### The normalised rows -/

/-- Stage 5 at row `r`: the floored norm of row `r` of the input. -/
theorem v5_at (x0 : (⟨S512x512, .f32⟩ : BufTy).Contents (Elt Ideal)) (r : Fin 512) (c : Fin 1) :
    val_main_v5 (F := Ideal) x0 (ix2 r c) = nrm (rowOf x0 r) := by
  rw [val_main_v5_apply, val_main_v3_apply, val_main_v2_apply, val_main_v1_apply, val_main_v4_apply,
    val_main_cst_0_apply, val_main_cst_apply]
  rw [Ideal.maximumf_def, Ideal.hostUnary_sqrt_def, Ideal.ofBits_def, Ideal.ofBits_def, Ideal.ofBits_zero_f32, zero_add]
  unfold nrm sumsq rowOf
  simp only [idx_v1_v2, val_main_v0_apply, Ideal.mulf_def]

/-- Stage 7 at (r, k): the entry divided by its row's floored norm. -/
theorem v7_at (x0 : (⟨S512x512, .f32⟩ : BufTy).Contents (Elt Ideal)) (r : Fin 512) (k : Fin 512) :
    val_main_v7 (F := Ideal) x0 (ix2 r k) = Ideal.div (x0 (ix2 r k)) (nrm (rowOf x0 r)) := by
  rw [val_main_v7_apply, val_main_v6_apply, idx_v6, v5_at, Ideal.hostDivf_def]

/-- Stage 13 at row `q`: the floored norm of row `q` of the weights. -/
theorem v13_at (x1 : (⟨S100000x512, .f32⟩ : BufTy).Contents (Elt Ideal)) (q : Fin 100000) (c : Fin 1) :
    val_main_v13 (F := Ideal) x1 (ix2 q c) = nrm (rowOf x1 q) := by
  rw [val_main_v13_apply, val_main_v11_apply, val_main_v10_apply, val_main_v9_apply, val_main_v12_apply,
    val_main_cst_2_apply, val_main_cst_1_apply]
  rw [Ideal.maximumf_def, Ideal.hostUnary_sqrt_def, Ideal.ofBits_def, Ideal.ofBits_def, Ideal.ofBits_zero_f32, zero_add]
  unfold nrm sumsq rowOf
  simp only [idx_v9_v10, val_main_v8_apply, Ideal.mulf_def]

/-- Stage 15 at (q, k): the weight divided by its row's floored norm. -/
theorem v15_at (x1 : (⟨S100000x512, .f32⟩ : BufTy).Contents (Elt Ideal)) (q : Fin 100000) (k : Fin 512) :
    val_main_v15 (F := Ideal) x1 (ix2 q k) = Ideal.div (x1 (ix2 q k)) (nrm (rowOf x1 q)) := by
  rw [val_main_v15_apply, val_main_v14_apply, idx_v14, v13_at, Ideal.hostDivf_def]

/-- Stage 16 at (k, q): the transposed normalised weights. -/
theorem v16_at (x1 : (⟨S100000x512, .f32⟩ : BufTy).Contents (Elt Ideal)) (k : Fin 512) (q : Fin 100000) :
    val_main_v16 (F := Ideal) x1 (ix2 k q) = Ideal.div (x1 (ix2 q k)) (nrm (rowOf x1 q)) := by
  rw [val_main_v16_apply, idx_v16, v15_at]

/-! ### The cosine -/

/-- Stage 17 at (r, q): the cosine of row `r` of the input and row `q` of the weights. -/
theorem v17_at (x0 : (⟨S512x512, .f32⟩ : BufTy).Contents (Elt Ideal)) (x1 : (⟨S100000x512, .f32⟩ : BufTy).Contents (Elt Ideal))
    (r : Fin 512) (q : Fin 100000) :
    val_main_v17 (F := Ideal) x0 x1 (ix2 r q) = cosOf (rowOf x0 r) (rowOf x1 q) := by
  rw [val_main_v17_apply]
  unfold cosOf
  refine Finset.sum_congr rfl fun k _ => ?_
  rw [lidx_v17, ridx_v17, v7_at, v16_at]
  rfl

/-! ### The label's indicator -/

/-- Stage 32 at (r, q): one where column `q` is row `r`'s label, zero elsewhere. -/
theorem v32_at (x2 : (⟨S512, .i32⟩ : BufTy).Contents (Elt Ideal)) (r : Fin 512) (q : Fin 100000) :
    val_main_v32 (F := Ideal) x2 (ix2 r q) = (((hitAt (x2 (ix1 r)) q.val).toNat : ℝ) : EReal) := by
  rw [val_main_v32_apply, val_main_call1_v4_apply, val_main_call1_v2_apply, val_main_call1_v0_apply,
    val_main_call1_v3_apply, val_main_call1_v1_apply, idx_c0_c2, idx_c3_val]
  rfl

/-! ### The margin formula -/

/-- The last stage at (r, q) from the cosine and the indicator there. -/
theorem v39_at (x0 : (⟨S512x512, .f32⟩ : BufTy).Contents (Elt Ideal)) (x1 : (⟨S100000x512, .f32⟩ : BufTy).Contents (Elt Ideal))
    (x2 : (⟨S512, .i32⟩ : BufTy).Contents (Elt Ideal)) (r : Fin 512) (q : Fin 100000) :
    val_main_v39 (F := Ideal) x0 x1 x2 (ix2 r q)
      = marginR (cosOf (rowOf x0 r) (rowOf x1 q)) (hitAt (x2 (ix1 r)) q.val) := by
  rw [val_main_v39_apply, val_main_v37_apply, val_main_v33_apply, val_main_v36_apply, val_main_v35_apply,
    val_main_v34_apply, val_main_v31_apply, val_main_v28_apply, val_main_v26_apply, val_main_v30_apply,
    val_main_v23_apply, val_main_v25_apply, val_main_v21_apply, val_main_v20_apply, val_main_v18_apply,
    val_main_v19_apply, val_main_v22_apply, val_main_v24_apply, val_main_v27_apply, val_main_v29_apply,
    val_main_v38_apply, val_main_cst_3_apply, val_main_cst_4_apply, val_main_cst_5_apply, val_main_cst_6_apply,
    val_main_cst_7_apply, val_main_cst_8_apply, val_main_cst_9_apply]
  rw [v32_at, v17_at]
  rfl

/-- The last stage of the reference, as a function of the argument arrays, is `GR`. -/
theorem ref_eq (x0 : (⟨S512x512, .f32⟩ : BufTy).Contents (Elt Ideal)) (x1 : (⟨S100000x512, .f32⟩ : BufTy).Contents (Elt Ideal))
    (x2 : (⟨S512, .i32⟩ : BufTy).Contents (Elt Ideal)) :
    val_main_v39 (F := Ideal) x0 x1 x2 = GR x0 x1 x2 := by
  funext i
  obtain ⟨r, q, rfl⟩ : ∃ (r : Fin 512) (q : Fin 100000), i = ix2 r q := ⟨i 0, i 1, eq_ix2 i⟩
  rw [GR_apply, v39_at]

end Cert.ReferenceIdeal.RefValue

end
-- ==== Proof.Finite.lean ====
/-
  The precondition says every entry of the two float arguments is a real number.

  It is printed as: the absolute value of each entry compared below +∞, the comparisons of each array folded by
  `and` from `true` into one bit, the two bits `and`ed. On the extended reals `|x| < +∞` holds exactly of the real
  numbers: `|⊥| = |⊤| = ⊤`.
-/
import proofs.«118442_j50869592654076_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- The shape of rank zero has one index. -/
instance : Subsingleton S_.Idx := ⟨fun a b => funext fun d => d.elim0⟩

/-- The pattern `0x7F800000` denotes +∞. -/
theorem inf_f32 : Ideal.ofBits .f32 0x7F800000#32 = ⊤ := by simp [Ideal.ofBits, Ideal.ieee]

/-- An extended real whose absolute value is below +∞ is a real number: `|⊥| = |⊤| = ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One entry of the comparison array being one says the entry of the operand is a real number. -/
theorem real_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have h' : BitVec.ofBool (decide (max (x i) (-(x i)) < Ideal.ofBits .f32 0x7F800000#32)) = 1#1 := h
  rw [inf_f32] at h'
  refine real_of_abs_lt_top (x i) ?_
  by_contra hn
  rw [decide_eq_false hn] at h'
  exact absurd h' (by decide)

/-- Where the printed precondition is all ones, every entry of the input and of the weights is a real number. -/
theorem real_of_pre (x : FVec Ideal S512x512 .f32) (w : FVec Ideal S100000x512 .f32) (l : IVec S512 32)
    (h : fn (F := Ideal) x w l = fun _ => 1#1) :
    (∀ i, ∃ r : ℝ, x i = (r : EReal)) ∧ (∀ i, ∃ r : ℝ, w i = (r : EReal)) := by
  have h0 := congrFun h ValueIdx.ix0
  dsimp only [fn] at h0
  obtain ⟨h1, h2⟩ := IntOp.andi_eq_one.1 h0
  exact ⟨fun i => real_of_cmp x _ i (Host.reduce_andi_all _ _ _ _ _ h1 i),
    fun i => real_of_cmp w _ i (Host.reduce_andi_all _ _ _ _ _ h2 i)⟩

end Cert.Pre_finite_inputs.Finite

end
-- ==== Proof.lean ====
/-
  The kernel computes, for a 512 × 512 input, a 100000 × 512 weight matrix and 512 labels, the cosine of every input row
  with every weight row — each row divided by its Euclidean norm floored at a small constant — then the additive
  angular margin on the label's column, times a scale; the reference is the same formula in jnp.

  They differ in four places, none of which changes a value over the reals:
  * the kernel works on the weight matrix padded with zero rows to 98 blocks of 1024 rows, one block per grid point,
    and the host cuts the result back to 100000 columns: inside those columns the padded rows are never read;
  * the kernel clips the cosine to [-1, 1] and floors `1 - c²` at zero before the square root: by the Cauchy–Schwarz
    inequality the cosine of two rows of real numbers already lies in [-1, 1], so both are the identity — this is
    where the precondition (every float input finite) is used;
  * the kernel selects between the margin-adjusted value and the cosine by comparing the column number with the label,
    the reference blends them with the 0/1 indicator of the same comparison;
  * the kernel rounds the normalised rows to a narrower format before the product, which over the extended reals is
    the identity.

  The frames of the two kernel programs are the frame certificate's (in a copy that binds the grid coordinate the
  stored value reads); the reference's frame is its run with the result dropped. The value claim sets the kernel's run
  (`KValue.run`: the result is `GK` of the arguments) beside the reference's (`RefValue.ref_eq`: the result is `GR` of
  them) and closes by `GK = GR` on real entries.
-/
import proofs.«118442_j50869592654076_1_alg».proof.Defs
import proofs.«118442_j50869592654076_1_alg».proof.Proof.Gen.Kernel
import proofs.«118442_j50869592654076_1_alg».proof.Proof.Gen.KernelIdeal
import proofs.«118442_j50869592654076_1_alg».proof.Proof.Gen.ReferenceIdeal
import proofs.«118442_j50869592654076_1_alg».proof.Proof.Gen.Pre_finite_inputs
import proofs.«118442_j50869592654076_1_alg».proof.Proof.Gen.ReferenceIdeal.Run
import proofs.«118442_j50869592654076_1_alg».proof.Proof.Gen.ReferenceIdeal.Read
import proofs.«118442_j50869592654076_1_alg».proof.Proof.KernelFrame
import proofs.«118442_j50869592654076_1_alg».proof.Proof.KernelIdealFrame
import proofs.«118442_j50869592654076_1_alg».proof.Proof.KernelValue
import proofs.«118442_j50869592654076_1_alg».proof.Proof.RefValue
import proofs.«118442_j50869592654076_1_alg».proof.Proof.Finite
import Idealize.ShloMosaic.Adequacy
import Idealize.ShloMosaic.Init

noncomputable section

namespace Cert.Proof

open Idealize.ShloMosaic Idealize.SL.Sem Cert.ArcMargin

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's run ends with its result at `GK` of them and the
    reference's at `GR` of them; the input and the weights being real numbers (the precondition), the two are one array. -/
theorem algebraic : Cert.algebraic_KernelIdeal_ReferenceIdeal := by
  intro m ρ m' ρ' hpre hagree
  refine ⟨fun c => GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Finite.real_of_pre _ _ _ (hpre c)
  rw [Cert.ReferenceIdeal.Read.val_main_v39_eq, Cert.ReferenceIdeal.RefValue.ref_eq, (hagree c).1, (hagree c).2.1, (hagree c).2.2]
  exact (GK_eq_GR _ _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
